-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S524288 : Shape := ⟨1, ![524288]⟩
abbrev S16x63 : Shape := ⟨2, ![16, 63]⟩
abbrev S16 : Shape := ⟨1, ![16]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S16x63 : S_.BroadcastsInDim S16x63 (![] : Fin 0 → Fin S16x63.rank)
  reducesTo_S16x63_S_d0_1 : S16x63.ReducesTo [0, 1] S_
  bcast_S_S524288 : S_.BroadcastsInDim S524288 (![] : Fin 0 → Fin S524288.rank)
  reducesTo_S524288_S_d0 : S524288.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S524288x1 .f32) (main_arg1 : IVec S524288 32) (main_arg2 : FVec F S16x63 .f32) (main_arg3 : IVec S16 32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S16x63 .f32 := Host.absf main_arg2
  let main_cst_0 : FVec F S_ .f32 := constant S_ .f32 0x7F800000#32
  let main_v5 : FVec F S16x63 .f32 := broadcastInDim S16x63 ![] bcast_S_S16x63 main_cst_0
  let main_v6 : IVec S16x63 1 := cmpf .olt main_v4 main_v5
  let main_c_1 : IVec S_ 1 := constantI S_ 1 1#1
  let main_v7 : IVec S_ 1 := (fun x v => Host.reduce IntOp.andi x v reducesTo_S16x63_S_d0_1 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg1 main_v9
  let main_c_3 : IVec S_ 1 := constantI S_ 1 1#1
  let main_v11 : IVec S_ 1 := (fun x v => Host.reduce IntOp.andi x v reducesTo_S524288_S_d0 h_S_) main_v10 main_c_3
  let main_v12 : IVec S_ 1 := andi main_v8 main_v11
  let main_c_4 : IVec S_ 32 := constantI S_ 32 16#32
  let main_v13 : IVec S524288 32 := broadcastInDim S524288 ![] bcast_S_S524288 main_c_4
  let main_v14 : IVec S524288 1 := cmpi .slt main_arg1 main_v13
  let main_c_5 : IVec S_ 1 := constantI S_ 1 1#1
  let main_v15 : IVec S_ 1 := (fun x v => Host.reduce IntOp.andi x v reducesTo_S524288_S_d0 h_S_) main_v14 main_c_5
  fn_part1 (F := F) main_v12 main_v15
-- ==== Kernel.lean ====
abbrev S524288x1 : Shape := ⟨2, ![524288, 1]⟩
abbrev S524288 : Shape := ⟨1, ![524288]⟩
abbrev S16x63 : Shape := ⟨2, ![16, 63]⟩
abbrev S16 : Shape := ⟨1, ![16]⟩
abbrev S63 : Shape := ⟨1, ![63]⟩
abbrev S1x63 : Shape := ⟨2, ![1, 63]⟩
abbrev S16x1 : Shape := ⟨2, ![16, 1]⟩
abbrev S524288x63 : Shape := ⟨2, ![524288, 63]⟩
abbrev S2048x1 : Shape := ⟨2, ![2048, 1]⟩
abbrev S2048x63 : Shape := ⟨2, ![2048, 63]⟩
abbrev S1x16 : Shape := ⟨2, ![1, 16]⟩
abbrev S2048x16 : Shape := ⟨2, ![2048, 16]⟩

abbrev nBuf : Space → Nat
  | .hbm => 14
  | .vmem => 10
  | .smem => 0
  | _ => 0

abbrev bufTy : (tb : Table) → Fin (tcTables nBuf tb) → BufTy
  | .hbm, ⟨0, _⟩ => ⟨S524288x1, .f32⟩
  | .hbm, ⟨1, _⟩ => ⟨S524288, .i32⟩
  | .hbm, ⟨2, _⟩ => ⟨S16x63, .f32⟩
  | .hbm, ⟨3, _⟩ => ⟨S16, .i32⟩
  | .hbm, ⟨4, _⟩ => ⟨S524288x1, .i32⟩
  | .hbm, ⟨5, _⟩ => ⟨S63, .i32⟩
  | .hbm, ⟨6, _⟩ => ⟨S1x63, .i32⟩
  | .hbm, ⟨7, _⟩ => ⟨S16x1, .i32⟩
  | .hbm, ⟨8, _⟩ => ⟨S16x63, .i32⟩
  | .hbm, ⟨9, _⟩ => ⟨S16x63, .i32⟩
  | .hbm, ⟨10, _⟩ => ⟨S16x63, .i1⟩
  | .hbm, ⟨11, _⟩ => ⟨S16x63, .f32⟩
  | .hbm, ⟨12, _⟩ => ⟨S524288x63, .f32⟩
  | .hbm, ⟨13, _⟩ => ⟨S524288x63, .f32⟩
  | .local _ .vmem, ⟨0, _⟩ => ⟨S2048x1, .f32⟩
  | .local _ .vmem, ⟨1, _⟩ => ⟨S2048x1, .f32⟩
  | .local _ .vmem, ⟨2, _⟩ => ⟨S2048x1, .i32⟩
  | .local _ .vmem, ⟨3, _⟩ => ⟨S2048x1, .i32⟩
  | .local _ .vmem, ⟨4, _⟩ => ⟨S16x63, .f32⟩
  | .local _ .vmem, ⟨5, _⟩ => ⟨S16x63, .f32⟩
  | .local _ .vmem, ⟨6, _⟩ => ⟨S2048x63, .f32⟩
  | .local _ .vmem, ⟨7, _⟩ => ⟨S2048x63, .f32⟩
  | .local _ .vmem, ⟨8, _⟩ => ⟨S2048x63, .f32⟩
  | .local _ .vmem, ⟨9, _⟩ => ⟨S2048x63, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x63 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x63 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x63 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S524288_S524288x1 : S524288.ShapeCasts S524288x1
  bcast_S63_S1x63_1 : S63.BroadcastsInDim S1x63 (![1] : Fin 1 → Fin S1x63.rank)
  bcast_S16_S16x1_0 : S16.BroadcastsInDim S16x1 (![0] : Fin 1 → Fin S16x1.rank)
  bcast_S1x63_S16x63_0_1 : S1x63.BroadcastsInDim S16x63 (![0, 1] : Fin 2 → Fin S16x63.rank)
  bcast_S16x1_S16x63_0_1 : S16x1.BroadcastsInDim S16x63 (![0, 1] : Fin 2 → Fin S16x63.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x16_d1_w32 : S1x16.Iotas .tc 32 [1]
  broadcasts_S2048x1_S2048x16 : S2048x1.Broadcasts S2048x16
  broadcasts_S1x16_S2048x16 : S1x16.Broadcasts S2048x16
  natLt_1_32 : 1 < 32
  inb_S16x63_S16x63_0_0 : ∀ a, (![0, 0] : Fin 2 → Nat) a + S16x63.size a ≤ S16x63.size a
  h_S16x63 : 0 < S16x63.numel
  shapeCasts_S16x63_S16x63 : S16x63.ShapeCasts S16x63
  broadcasts_S2048x1_S2048x63 : S2048x1.Broadcasts S2048x63
  inb_S2048x63_S2048x63_0_0 : ∀ a, (![0, 0] : Fin 2 → Nat) a + S2048x63.size a ≤ S2048x63.size a
  h_S2048x63 : 0 < S2048x63.numel
  dot_S2048x16_S16x63_S2048x63_1_0_0_1_n_n_wf : DotDims.WF S2048x16 S16x63 S2048x63 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S524288x1.size a
  hwx0_0 : ∀ i : grid0.Coords, EltTy.bits .f32 = 32 ∨ (Rect.block (s := S524288x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S524288x1.size a
  hwx0_1 : ∀ i : grid0.Coords, EltTy.bits .i32 = 32 ∨ (Rect.block (s := S524288x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x63.size a ≤ S16x63.size a
  hwx0_2 : ∀ i : grid0.Coords, EltTy.bits .f32 = 32 ∨ (Rect.block (s := S16x63) S16x63.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x63.size a ≤ S16x63.size a
  hwx0_3 : ∀ i : grid0.Coords, EltTy.bits .f32 = 32 ∨ (Rect.block (s := S16x63) S16x63.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x63.size a ≤ S524288x63.size a
  hwx0_4 : ∀ i : grid0.Coords, EltTy.bits .f32 = 32 ∨ (Rect.block (s := S524288x63) S2048x63.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x63.size a ≤ S524288x63.size a
  hwx0_5 : ∀ i : grid0.Coords, EltTy.bits .f32 = 32 ∨ (Rect.block (s := S524288x63) S2048x63.size (cc0_transform_5 i) (hinb0_5 i)).WholeWords (EltTy.packing .f32)

variable [Facts₀]

def dot_S2048x16_S16x63_S2048x63_1_0_0_1_n_n : DotDims S2048x16 S16x63 S2048x63 where
  lhsContracting := [1]
  rhsContracting := [0]
  lhsNonContracting := [0]
  rhsNonContracting := [1]
  lhsBatch := []
  rhsBatch := []
  wf := dot_S2048x16_S16x63_S2048x63_1_0_0_1_n_n_wf

abbrev win0_0 : Pipeline.Window sig grid0 :=
  Pipeline.Window.ofSpec (Memref.whole main_arg0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x63.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S16x63.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S2048x63.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S2048x63.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x1 : Shape := ⟨2, ![524288, 1]⟩
abbrev S524288 : Shape := ⟨1, ![524288]⟩
abbrev S16x63 : Shape := ⟨2, ![16, 63]⟩
abbrev S16 : Shape := ⟨1, ![16]⟩
abbrev S_ : Shape := ⟨0, ![]⟩
abbrev S524288x63 : Shape := ⟨2, ![524288, 63]⟩
abbrev S63 : Shape := ⟨1, ![63]⟩
abbrev S1x63 : Shape := ⟨2, ![1, 63]⟩

abbrev nBuf : Space → Nat
  | .hbm => 38
  | .vmem => 0
  | .smem => 0
  | _ => 0

abbrev bufTy : (tb : Table) → Fin (tcTables nBuf tb) → BufTy
  | .hbm, ⟨0, _⟩ => ⟨S524288x1, .f32⟩
  | .hbm, ⟨1, _⟩ => ⟨S524288, .i32⟩
  | .hbm, ⟨2, _⟩ => ⟨S16x63, .f32⟩
  | .hbm, ⟨3, _⟩ => ⟨S16, .i32⟩
  | .hbm, ⟨4, _⟩ => ⟨S_, .i32⟩
  | .hbm, ⟨5, _⟩ => ⟨S524288, .i32⟩
  | .hbm, ⟨6, _⟩ => ⟨S524288, .i1⟩
  | .hbm, ⟨7, _⟩ => ⟨S_, .i32⟩
  | .hbm, ⟨8, _⟩ => ⟨S524288, .i32⟩
  | .hbm, ⟨9, _⟩ => ⟨S524288, .i32⟩
  | .hbm, ⟨10, _⟩ => ⟨S524288, .i32⟩
  | .hbm, ⟨11, _⟩ => ⟨S524288x1, .i32⟩
  | .hbm, ⟨12, _⟩ => ⟨S524288x63, .f32⟩
  | .hbm, ⟨13, _⟩ => ⟨S63, .i32⟩
  | .hbm, ⟨14, _⟩ => ⟨S1x63, .i32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288, .i32⟩
  | .hbm, ⟨24, _⟩ => ⟨S524288x1, .i32⟩
  | .hbm, ⟨25, _⟩ => ⟨S524288x63, .i32⟩
  | .hbm, ⟨26, _⟩ => ⟨S524288x63, .i32⟩
  | .hbm, ⟨27, _⟩ => ⟨S524288x63, .i1⟩
  | .hbm, ⟨28, _⟩ => ⟨S524288x63, .f32⟩
  | .hbm, ⟨29, _⟩ => ⟨S524288x63, .f32⟩
  | .hbm, ⟨30, _⟩ => ⟨S_, .f32⟩
  | .hbm, ⟨31, _⟩ => ⟨S_, .f32⟩
  | .hbm, ⟨32, _⟩ => ⟨S524288x63, .f32⟩
  | .hbm, ⟨33, _⟩ => ⟨S524288x63, .f32⟩
  | .hbm, ⟨34, _⟩ => ⟨S_, .f32⟩
  | .hbm, ⟨35, _⟩ => ⟨S_, .f32⟩
  | .hbm, ⟨36, _⟩ => ⟨S524288x63, .f32⟩
  | .hbm, ⟨37, _⟩ => ⟨S524288x63, .f32⟩
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S63_S1x63_1 : S63.BroadcastsInDim S1x63 (![1] : Fin 1 → Fin S1x63.rank)
  bcast_S1x63_S524288x63_0_1 : S1x63.BroadcastsInDim S524288x63 (![0, 1] : Fin 2 → Fin S524288x63.rank)
  bcast_S524288x1_S524288x63_0_1 : S524288x1.BroadcastsInDim S524288x63 (![0, 1] : Fin 2 → Fin S524288x63.rank)
  bcast_S_S524288x63 : S_.BroadcastsInDim S524288x63 (![] : Fin 0 → Fin S524288x63.rank)
  gather_S16x63_S524288x1_S524288x63_1_0_n_n_0_1_163_wf : GatherDims.WF S16x63 S524288x1 S524288x63 [1] [0] [] [0] [] 1 ![1, 63]
  gather_S16_S524288x1_S524288_n_0_n_n_0_1_1_wf : GatherDims.WF S16 S524288x1 S524288 [] [0] [] [0] [] 1 ![1]

variable [Facts₀]

def gather_S16x63_S524288x1_S524288x63_1_0_n_n_0_1_163 : GatherDims S16x63 S524288x1 S524288x63 where
  offsetDims := [1]
  collapsedSliceDims := [0]
  operandBatchingDims := []
  startIndicesBatchingDims := []
  startIndexMap := [0]
  indexVectorDim := 1
  sliceSizes := ![1, 63]
  wf := gather_S16x63_S524288x1_S524288x63_1_0_n_n_0_1_163_wf
def gather_S16_S524288x1_S524288_n_0_n_n_0_1_1 : GatherDims S16 S524288x1 S524288 where
  offsetDims := []
  collapsedSliceDims := [0]
  operandBatchingDims := []
  startIndicesBatchingDims := []
  startIndexMap := [0]
  indexVectorDim := 1
  sliceSizes := ![1]
  wf := gather_S16_S524288x1_S524288_n_0_n_n_0_1_1_wf

class Facts : Prop extends Facts₀ where

variable [Facts]
-- ==== Proof.OneHot.lean ====
/-
  Selecting a table row by a one-hot vector, on the extended reals.

  A row number `id` (a 32-bit word) is turned into the vector of sixteen indicators `[id = k]`, each `1` or `0`; the
  product of that vector with a sixteen-row table is the table's row `id` when `id` is below sixteen. On the extended
  reals this needs no finiteness of the table: `0 * x = 0` and `1 * x = x` for every `x`, infinite or not, and a sum
  whose terms are all `0` but one is that one term. A `0/1` value compared with one half gives back the bit it came from.
-/
import Idealize.ShloMosaic.PureOps.Ideal.Laws
import Idealize.ShloMosaic.Lib.ValueIdx
import Idealize.ShloMosaic.Lib.StableHlo.Predicate

noncomputable section

namespace Cert.OneHot

open Idealize.ShloMosaic Idealize.ShloMosaic.ValueIdx

/-- The indicator that the word `id` is the number `k`. -/
def ind (id : BitVec 32) (k : Fin 16) : EReal := if id = BitVec.ofNat 32 k.val then 1 else 0

/-- A bit widened to 32 bits and read as a signed integer is the real `1` or `0`. -/
theorem widened_bit (b : BitVec 1) : (((b.setWidth 32).toInt : ℝ) : EReal) = if b = 1#1 then 1 else 0 := by
  by_cases h : b = 1#1
  · subst h
    have e : ((1#1 : BitVec 1).setWidth 32).toInt = 1 := by decide
    rw [e, if_pos rfl]; simp
  · have h0 := eq_zero_of_ne_one h
    subst h0
    have e : ((0#1 : BitVec 1).setWidth 32).toInt = 0 := by decide
    rw [e, if_neg (by decide)]; simp

/-- The one-hot vector's entry `k`: the comparison bit of `id` with `k`, widened and converted, is the indicator. -/
theorem entry (id : BitVec 32) (k : Fin 16) :
    FloatOps.sitofp (F := Ideal) .f32 ((IntOp.cmpi .eq id (BitVec.ofNat 32 k.val)).setWidth 32) = ind id k := by
  show ((((IntOp.cmpi .eq id (BitVec.ofNat 32 k.val)).setWidth 32).toInt : ℝ) : EReal) = _
  rw [widened_bit]
  unfold ind
  exact if_congr StableHlo.Predicate.cmpi_eq_iff rfl rfl

/-- A word below sixteen is the number of exactly one row, its own value. -/
theorem eq_ofNat_iff (id : BitVec 32) (h : id.toNat < 16) (k : Fin 16) :
    id = BitVec.ofNat 32 k.val ↔ k = ⟨id.toNat, h⟩ := by
  constructor
  · intro e
    apply Fin.ext
    show k.val = id.toNat
    rw [e, BitVec.toNat_ofNat]
    have := k.isLt
    omega
  · intro e
    subst e
    show id = BitVec.ofNat 32 id.toNat
    rw [BitVec.ofNat_toNat, BitVec.setWidth_eq]

/-- THE SELECTION: the one-hot vector of a word below sixteen times a column of sixteen extended reals is the column's
    entry at that word. -/
theorem sum_ind (id : BitVec 32) (h : id.toNat < 16) (f : Fin 16 → EReal) :
    ∑ k : Fin 16, ind id k * f k = f ⟨id.toNat, h⟩ := by
  rw [Finset.sum_eq_single (⟨id.toNat, h⟩ : Fin 16)]
  · unfold ind
    rw [if_pos ((eq_ofNat_iff id h _).mpr rfl), one_mul]
  · intro k _ hk
    unfold ind
    rw [if_neg (fun e => hk ((eq_ofNat_iff id h k).mp e)), zero_mul]
  · intro h'
    exact absurd (Finset.mem_univ _) h'

/-- The pattern `0x3F000000` denotes one half. -/
theorem ofBits_half : Ideal.ofBits .f32 0x3F000000#32 = ((1 / 2 : ℝ) : EReal) := by
  simp [Ideal.ofBits, Ideal.ieee, -EReal.coe_mul]; norm_num

/-- A bit read as an unsigned integer and compared with one half gives back the bit: `1 > 1/2` and not `0 > 1/2`. -/
theorem gt_half (b : BitVec 1) :
    Ideal.cmp .ogt (((b.toNat : ℝ)) : EReal) (Ideal.ofBits .f32 0x3F000000#32) = b := by
  rw [ofBits_half]
  by_cases h : b = 1#1
  · subst h
    have hlt : (((1 / 2 : ℝ)) : EReal) < ((((1#1 : BitVec 1).toNat : ℝ)) : EReal) := by
      rw [EReal.coe_lt_coe_iff]; norm_num
    show BitVec.ofBool (decide ((((1 / 2 : ℝ)) : EReal) < ((((1#1 : BitVec 1).toNat : ℝ)) : EReal))) = 1#1
    rw [decide_eq_true hlt]; rfl
  · have h0 := eq_zero_of_ne_one h
    subst h0
    have hlt : ¬ (((1 / 2 : ℝ)) : EReal) < ((((0#1 : BitVec 1).toNat : ℝ)) : EReal) := by
      rw [EReal.coe_lt_coe_iff]; norm_num
    show BitVec.ofBool (decide ((((1 / 2 : ℝ)) : EReal) < ((((0#1 : BitVec 1).toNat : ℝ)) : EReal))) = 0#1
    rw [decide_eq_false hlt]; rfl

end Cert.OneHot

end
-- ==== Proof.LibBroadcastColumn.lean ====
/-
  One column broadcast over many.

  An `[a, 1]` array broadcast to `[a, b]` (numpy's `v[:, None]` against a matrix) reads, at `(p, c)`, the operand's
  one column at row `p`. The companion of the library's `broadcastTo_1b_ab_apply` (one row over many).
-/
import Idealize.ShloMosaic.Lib.ValueLayout

namespace Idealize.ShloMosaic.ValueIdx

open Idealize.ShloMosaic

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  What both programs compute, as one function of the four argument arrays.

  The arguments: `x : [B, 1]` reals, `ids : [B]` row numbers, `w : [16, 63]` a table of cutoffs, one row per task, and
  `len : [16]` the number of valid columns of each row. For sample `b` with row `r = ids[b]`, column `c` is VALID when
  `c < len[r]` (a signed comparison of 32-bit words). The two results, both `[B, 63]`:

      pos[b, c]  = w[r, c]              where column c is valid, else 0
      diff[b, c] = x[b, 0] - w[r, c]    where column c is valid, else 0

  The subtraction is the extended reals' own; nothing here needs `x` or `w` finite. The row numbers are taken in
  range, `ids[b] < 16` as a natural number (`InRange`), which is what the precondition's two conjuncts
  `0 ≤ ids` and `ids < 16` say of the signed words: outside that range a gather clamps or wraps the number where a
  one-hot product selects nothing, and the two programs differ.
-/
import Idealize.ShloMosaic.PureOps.Ideal
import Idealize.ShloMosaic.Lib.ValueIdx

noncomputable section

namespace Cert.Spec

open Idealize.ShloMosaic Idealize.ShloMosaic.ValueIdx

abbrev SB1 : Shape := ⟨2, ![524288, 1]⟩
abbrev SB : Shape := ⟨1, ![524288]⟩
abbrev ST : Shape := ⟨2, ![16, 63]⟩
abbrev SL : Shape := ⟨1, ![16]⟩
abbrev SO : Shape := ⟨2, ![524288, 63]⟩

/-- Every row number is below sixteen. -/
def InRange (ids : IVec SB 32) : Prop := ∀ b : Fin 524288, (ids (ix1 b)).toNat < 16

/-- The table row a word names: itself when below sixteen (the only case `InRange` leaves), the last row otherwise. -/
def rowOf (id : BitVec 32) : Fin 16 := ⟨min id.toNat 15, by omega⟩

theorem rowOf_of_lt (id : BitVec 32) (h : id.toNat < 16) : rowOf id = ⟨id.toNat, h⟩ :=
  Fin.ext (by show min id.toNat 15 = id.toNat; omega)

/-- Whether column `c` is valid for the row the word `id` names: `c < len[row]`, signed. -/
def valid (len : IVec SL 32) (id : BitVec 32) (c : Fin 63) : BitVec 1 :=
  IntOp.cmpi .slt (BitVec.ofNat 32 c.val) (len (ix1 (rowOf id)))

/-- The selected cutoffs, zero outside the valid columns. -/
def pos (ids : IVec SB 32) (w : FVec Ideal ST .f32) (len : IVec SL 32) : FVec Ideal SO .f32 :=
  fun i => Scalar.select (valid len (ids (ix1 (i 0))) (i 1)) (w (ix2 (rowOf (ids (ix1 (i 0)))) (i 1))) (0 : EReal)

/-- The input minus the selected cutoffs, zero outside the valid columns. -/
def diff (x : FVec Ideal SB1 .f32) (ids : IVec SB 32) (w : FVec Ideal ST .f32) (len : IVec SL 32) : FVec Ideal SO .f32 :=
  fun i => Scalar.select (valid len (ids (ix1 (i 0))) (i 1))
    (x (ix2 (i 0) (0 : Fin 1)) - w (ix2 (rowOf (ids (ix1 (i 0)))) (i 1))) (0 : EReal)

end Cert.Spec

end
-- ==== Proof.Payload.lean ====
/-
  The kernel body's arithmetic at one entry of a block.

  A block is 2048 consecutive samples. The body builds the 2048 × 16 one-hot matrix of the block's row numbers (entry
  `(p, k)` is `1` when sample `p`'s number is `k`, else `0`) and multiplies it, exactly, by two 16 × 63 tables: the
  cutoffs `w`, and a `0/1` validity table `vt`. For a sample whose number `id` is below sixteen each product is a sum
  of fifteen zeros and one entry of the table, so it is the table's row `id`: the selected cutoff, and the validity
  bit as `0` or `1`. Comparing the latter with one half gives the bit back, and the two stores select by it between
  `x - cutoff` (or the cutoff) and zero.
-/
import proofs.«416598_j13511967113827_2_alg».proof.Proof.Gen.KernelIdeal.Skeleton
import proofs.«416598_j13511967113827_2_alg».proof.Proof.OneHot
import proofs.«416598_j13511967113827_2_alg».proof.Proof.LibBroadcastColumn
import proofs.«416598_j13511967113827_2_alg».proof.Proof.Spec
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The one-hot matrix -/

theorem onehot_tree (ids : Vec Ideal S2048x1 .i32) :
    k0_pay1 (F := Ideal) ids = sitofp .f32 (extui 32 (cmpi .eq
      (broadcastTo S2048x16 (shapeCast S2048x1 ids shapeCasts_S2048x1_S2048x1) broadcasts_S2048x1_S2048x16)
      (broadcastTo S2048x16 (iota .tc S1x16 32 [1] iota_S1x16_d1_w32) broadcasts_S1x16_S2048x16)) natLt_1_32) := rfl

/-- Entry `(p, k)` of the one-hot matrix is the indicator that sample `p`'s number is `k`. -/
theorem onehot_at (ids : Vec Ideal S2048x1 .i32) (p : Fin 2048) (k : Fin 16) :
    k0_pay1 (F := Ideal) ids (ix2 p k) = OneHot.ind (ids (ix2 p (0 : Fin 1))) k := by
  rw [onehot_tree]
  show FloatOps.sitofp (F := Ideal) .f32 ((IntOp.cmpi .eq
    (broadcastTo S2048x16 (shapeCast S2048x1 ids shapeCasts_S2048x1_S2048x1) broadcasts_S2048x1_S2048x16 (ix2 p k))
    (broadcastTo S2048x16 (iota .tc S1x16 32 [1] iota_S1x16_d1_w32) broadcasts_S1x16_S2048x16 (ix2 p k))).setWidth 32) = _
  rw [broadcastTo_a1_ab_apply, broadcastTo_1b_ab_apply, shapeCast_self]
  have hi : iota .tc S1x16 32 [1] iota_S1x16_d1_w32 (ix2 (0 : Fin 1) k) = BitVec.ofNat 32 k.val := by
    show BitVec.ofNat 32 (0 * 16 + k.val) = _
    rw [Nat.zero_mul, Nat.zero_add]
  rw [hi]
  exact OneHot.entry _ k

/-! ## The product with a sixteen-row table -/

theorem lhs_dot_0 (i : S2048x63.Idx) (q : dot_S2048x16_S16x63_S2048x63_1_0_0_1_n_n.contr.Idx) :
    (dot_S2048x16_S16x63_S2048x63_1_0_0_1_n_n.lhsIdx i q 0).val = (i 0).val := by
  unfold DotDims.lhsIdx
  rw [dif_neg (show ¬(0 : Fin S2048x16.rank) ∈ dot_S2048x16_S16x63_S2048x63_1_0_0_1_n_n.lhsBatch by decide),
    dif_pos (show (0 : Fin S2048x16.rank) ∈ dot_S2048x16_S16x63_S2048x63_1_0_0_1_n_n.lhsNonContracting by decide)]
  rfl

theorem lhs_dot_1 (i : S2048x63.Idx) (q : dot_S2048x16_S16x63_S2048x63_1_0_0_1_n_n.contr.Idx) :
    (dot_S2048x16_S16x63_S2048x63_1_0_0_1_n_n.lhsIdx i q 1).val = (q ⟨0, by decide⟩).val :=
  dot_S2048x16_S16x63_S2048x63_1_0_0_1_n_n.lhsIdx_val_of_single rfl i q

theorem rhs_dot_0 (i : S2048x63.Idx) (q : dot_S2048x16_S16x63_S2048x63_1_0_0_1_n_n.contr.Idx) :
    (dot_S2048x16_S16x63_S2048x63_1_0_0_1_n_n.rhsIdx i q 0).val = (q ⟨0, by decide⟩).val :=
  dot_S2048x16_S16x63_S2048x63_1_0_0_1_n_n.rhsIdx_val_of_single rfl i q

theorem rhs_dot_1 (i : S2048x63.Idx) (q : dot_S2048x16_S16x63_S2048x63_1_0_0_1_n_n.contr.Idx) :
    (dot_S2048x16_S16x63_S2048x63_1_0_0_1_n_n.rhsIdx i q 1).val = (i 1).val := by
  unfold DotDims.rhsIdx
  rw [dif_neg (show ¬(1 : Fin S16x63.rank) ∈ dot_S2048x16_S16x63_S2048x63_1_0_0_1_n_n.rhsBatch by decide),
    dif_pos (show (1 : Fin S16x63.rank) ∈ dot_S2048x16_S16x63_S2048x63_1_0_0_1_n_n.rhsNonContracting by decide)]
  rfl

/-- The exact product into a zero accumulator, at `(p, q)`: the sum over the sixteen rows. -/
theorem product_at (A : FVec Ideal S2048x16 .f32) (T : FVec Ideal S16x63 .f32) (p : Fin 2048) (q : Fin 63) :
    matmul (φ₁ := .f32) (φ₂ := .f32) dot_S2048x16_S16x63_S2048x63_1_0_0_1_n_n (some .fp32) A T (constant S2048x63 .f32 0x00000000#32) (ix2 p q)
      = ∑ k : Fin 16, A (ix2 p k) * T (ix2 k q) := by
  simp only [matmul]
  rw [Ideal.matmul_constant_zero_apply,
    ← Equiv.sum_comp (contrEquiv1 dot_S2048x16_S16x63_S2048x63_1_0_0_1_n_n 16 rfl rfl).symm]
  refine Finset.sum_congr rfl fun k _ => ?_
  have hk := contrEquiv1_symm_val dot_S2048x16_S16x63_S2048x63_1_0_0_1_n_n 16 rfl rfl k
  have el : dot_S2048x16_S16x63_S2048x63_1_0_0_1_n_n.lhsIdx (ix2 p q)
      ((contrEquiv1 dot_S2048x16_S16x63_S2048x63_1_0_0_1_n_n 16 rfl rfl).symm k) = ix2 p k :=
    funext fun a => Fin.ext (by
      match a with
      | ⟨0, _⟩ => exact lhs_dot_0 _ _
      | ⟨1, _⟩ => exact (lhs_dot_1 _ _).trans hk)
  have er : dot_S2048x16_S16x63_S2048x63_1_0_0_1_n_n.rhsIdx (ix2 p q)
      ((contrEquiv1 dot_S2048x16_S16x63_S2048x63_1_0_0_1_n_n 16 rfl rfl).symm k) = ix2 k q :=
    funext fun a => Fin.ext (by
      match a with
      | ⟨0, _⟩ => exact (rhs_dot_0 _ _).trans hk
      | ⟨1, _⟩ => exact rhs_dot_1 _ _)
  rw [el, er]

/-- The one-hot matrix times a table, at a sample whose number is below sixteen: the table's row of that number. -/
theorem select_at (ids : Vec Ideal S2048x1 .i32) (T : FVec Ideal S16x63 .f32) (p : Fin 2048) (q : Fin 63)
    (h : (ids (ix2 p (0 : Fin 1))).toNat < 16) :
    matmul (φ₁ := .f32) (φ₂ := .f32) dot_S2048x16_S16x63_S2048x63_1_0_0_1_n_n (some .fp32) (k0_pay1 (F := Ideal) ids) T
        (constant S2048x63 .f32 0x00000000#32) (ix2 p q)
      = T (ix2 ⟨(ids (ix2 p (0 : Fin 1))).toNat, h⟩ q) := by
  rw [product_at]
  simp only [onehot_at]
  exact OneHot.sum_ind _ h (fun k => T (ix2 k q))

/-! ## The payloads -/

theorem cutoff_tree (ids : Vec Ideal S2048x1 .i32) (w : Vec Ideal S16x63 .f32) :
    k0_pay2 (F := Ideal) ids w = matmul (φ₁ := .f32) (φ₂ := .f32) dot_S2048x16_S16x63_S2048x63_1_0_0_1_n_n (some .fp32) (k0_pay1 ids) w
      (constant S2048x63 .f32 0x00000000#32) := rfl

theorem mask_tree (ids : Vec Ideal S2048x1 .i32) (vt : Vec Ideal S16x63 .f32) :
    k0_pay3 (F := Ideal) ids vt = cmpf .ogt
      (matmul (φ₁ := .f32) (φ₂ := .f32) dot_S2048x16_S16x63_S2048x63_1_0_0_1_n_n (some .fp32) (k0_pay1 ids)
        (shapeCast S16x63 vt shapeCasts_S16x63_S16x63) (constant S2048x63 .f32 0x00000000#32))
      (broadcast S2048x63 (Scalar.ofBits .f32 0x3F000000#32)) := rfl

theorem diff_tree (ids : Vec Ideal S2048x1 .i32) (w vt : Vec Ideal S16x63 .f32) (x : Vec Ideal S2048x1 .f32) :
    k0_pay4 (F := Ideal) ids w vt x = select (k0_pay3 ids vt)
      (subf (broadcastTo S2048x63 x broadcasts_S2048x1_S2048x63) (k0_pay2 ids w))
      (broadcast S2048x63 (Scalar.ofBits .f32 0x00000000#32)) := rfl

theorem pos_tree (ids : Vec Ideal S2048x1 .i32) (w vt : Vec Ideal S16x63 .f32) :
    k0_pay5 (F := Ideal) ids w vt = select (k0_pay3 ids vt) (k0_pay2 ids w)
      (broadcast S2048x63 (Scalar.ofBits .f32 0x00000000#32)) := rfl

section AtASample

variable (ids : Vec Ideal S2048x1 .i32) (w vt : Vec Ideal S16x63 .f32) (x : Vec Ideal S2048x1 .f32)
  (len : IVec Spec.SL 32) (p : Fin 2048) (q : Fin 63)

/-- The validity table holds, at `(t, c)`, the bit `c < len[t]` as `0` or `1`. -/
def IsValidityTable (vt : Vec Ideal S16x63 .f32) (len : IVec Spec.SL 32) : Prop :=
  ∀ (t : Fin 16) (c : Fin 63),
    vt (ix2 t c) = ((((IntOp.cmpi .slt (BitVec.ofNat 32 c.val) (len (ix1 t))).toNat : ℝ)) : EReal)

/-- The selected cutoff. -/
theorem cutoff_at (h : (ids (ix2 p (0 : Fin 1))).toNat < 16) : k0_pay2 (F := Ideal) ids w (ix2 p q) = w (ix2 (Spec.rowOf (ids (ix2 p (0 : Fin 1)))) q) := by
  rw [cutoff_tree, select_at ids w p q h, Spec.rowOf_of_lt _ h]

/-- The mask is the validity bit of the sample's row. -/
theorem mask_at (h : (ids (ix2 p (0 : Fin 1))).toNat < 16) (hvt : IsValidityTable vt len) : k0_pay3 (F := Ideal) ids vt (ix2 p q) = Spec.valid len (ids (ix2 p (0 : Fin 1))) q := by
  rw [mask_tree]
  show Ideal.cmp .ogt (matmul (φ₁ := .f32) (φ₂ := .f32) dot_S2048x16_S16x63_S2048x63_1_0_0_1_n_n (some .fp32) (k0_pay1 (F := Ideal) ids)
    (shapeCast S16x63 vt shapeCasts_S16x63_S16x63) (constant S2048x63 .f32 0x00000000#32) (ix2 p q))
    (Ideal.ofBits .f32 0x3F000000#32) = _
  rw [shapeCast_self, select_at ids vt p q h, hvt ⟨_, h⟩ q, ← Spec.rowOf_of_lt _ h]
  exact OneHot.gt_half _

/-- What the first store writes at `(p, q)`. -/
theorem diff_at (h : (ids (ix2 p (0 : Fin 1))).toNat < 16) (hvt : IsValidityTable vt len) : k0_pay4 (F := Ideal) ids w vt x (ix2 p q)
    = Scalar.select (Spec.valid len (ids (ix2 p (0 : Fin 1))) q)
        (x (ix2 p (0 : Fin 1)) - w (ix2 (Spec.rowOf (ids (ix2 p (0 : Fin 1)))) q)) (0 : EReal) := by
  rw [diff_tree]
  show Scalar.select (k0_pay3 (F := Ideal) ids vt (ix2 p q))
    (broadcastTo S2048x63 x broadcasts_S2048x1_S2048x63 (ix2 p q) - k0_pay2 (F := Ideal) ids w (ix2 p q))
    (Ideal.ofBits .f32 0x00000000#32) = _
  rw [mask_at ids vt len p q h hvt, cutoff_at ids w p q h, broadcastTo_a1_ab_apply, Ideal.ofBits_zero_f32]

/-- What the second store writes at `(p, q)`. -/
theorem pos_at (h : (ids (ix2 p (0 : Fin 1))).toNat < 16) (hvt : IsValidityTable vt len) : k0_pay5 (F := Ideal) ids w vt (ix2 p q)
    = Scalar.select (Spec.valid len (ids (ix2 p (0 : Fin 1))) q)
        (w (ix2 (Spec.rowOf (ids (ix2 p (0 : Fin 1)))) q)) (0 : EReal) := by
  rw [pos_tree]
  show Scalar.select (k0_pay3 (F := Ideal) ids vt (ix2 p q)) (k0_pay2 (F := Ideal) ids w (ix2 p q))
    (Ideal.ofBits .f32 0x00000000#32) = _
  rw [mask_at ids vt len p q h hvt, cutoff_at ids w p q h, Ideal.ofBits_zero_f32]

end AtASample

end Cert.KernelIdeal.Body

end
-- ==== Proof.IndexForms.lean ====
/-
  Two spellings of the same small indices.

  The library's lemmas about a printed predicate write a rank-2 index as `ij p q`, a rank-1 index as
  `Shape.Idx.ofFin p` and the row `p` of a one-column array as `ixP p`; the value lemmas write `ix2 p q`, `ix1 p` and
  `ix2 p 0`. Each pair is one function, coordinate by coordinate.
-/
import Idealize.ShloMosaic.Lib.ValueIdx
import Idealize.ShloMosaic.Lib.StableHlo.Predicate

namespace Cert.IndexForms

open Idealize.ShloMosaic Idealize.ShloMosaic.ValueIdx Idealize.ShloMosaic.StableHlo.Predicate

theorem ij_eq_ix2 {n m : Nat} (p : Fin n) (q : Fin m) : ij p q = ix2 p q := by
  funext d; match d with | ⟨0, _⟩ => rfl | ⟨1, _⟩ => rfl

theorem ofFin_eq_ix1 {n : Nat} (p : Fin n) : Shape.Idx.ofFin p = ix1 p := by
  funext d; match d with | ⟨0, _⟩ => exact Fin.ext rfl

theorem ixP_eq_ix2 {n : Nat} (p : Fin n) : ixP p = ix2 p (0 : Fin 1) := by
  funext d; match d with | ⟨0, _⟩ => rfl | ⟨1, _⟩ => rfl

end Cert.IndexForms
-- ==== Proof.Staged.lean ====
/-
  The two arrays the kernel's windows stage that the program itself computes before the launch.

  The row numbers enter the launch as a `[B, 1]` column, the reshape of the `[B]` argument: row `b` of the column is
  entry `b` of the argument. The validity table is `(c < len[t])` as `0.0` or `1.0` at `(t, c)`: an iota along the
  columns compared, signed, with the lengths laid along the rows, and the bit converted.
-/
import proofs.«416598_j13511967113827_2_alg».proof.Proof.Gen.KernelIdeal.Frame
import proofs.«416598_j13511967113827_2_alg».proof.Proof.Payload
import proofs.«416598_j13511967113827_2_alg».proof.Proof.IndexForms
import Idealize.ShloMosaic.Lib.StableHlo.Run
import Idealize.ShloMosaic.Lib.StableHlo.Predicate
import Idealize.ShloMosaic.Lib.Pipeline.Value

noncomputable section

namespace Cert.KernelIdeal.Staged

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ)

/-- The id column the launch finds is the reshape of the ids. -/
theorem ids_column (c : Dev nD) :
    (V m c main_v0 : S524288x1.Idx → BitVec 32)
      = shapeCast S524288x1 (m ((c : Thread nD τ).loc main_arg1) : S524288.Idx → BitVec 32) shapeCasts_S524288_S524288x1 := by
  dsimp only [Gen.V, Gen.hostOps0]
  after_results
  rfl

/-- Row `b` of the id column is entry `b` of the ids. -/
theorem ids_column_at (c : Dev nD) (b : Fin 524288) :
    (V m c main_v0 : S524288x1.Idx → BitVec 32) (ix2 b (0 : Fin 1))
      = (m ((c : Thread nD τ).loc main_arg1) : S524288.Idx → BitVec 32) (ix1 b) := by
  rw [ids_column]
  refine shapeCast_apply _ _ (ix2 b (0 : Fin 1)) (ix1 b) ?_
  rw [Shape.rowMajor_val_one, Shape.rowMajor_val_two]
  show b.val = b.val * 1 + 0
  omega

/-- The validity table the launch finds, as the operations that made it. -/
theorem validity_table (c : Dev nD) :
    (V m c main_v7 : S16x63.Idx → EReal)
      = uitofp (F := Ideal) .f32 (cmpi .slt
          (broadcastInDim S16x63 ![0, 1] bcast_S1x63_S16x63_0_1 (broadcastInDim S1x63 ![1] bcast_S63_S1x63_1 (iotaInDim S63 32 0)))
          (broadcastInDim S16x63 ![0, 1] bcast_S16x1_S16x63_0_1 (broadcastInDim S16x1 ![0] bcast_S16_S16x1_0
            (m ((c : Thread nD τ).loc main_arg3) : S16.Idx → BitVec 32)))) := by
  dsimp only [Gen.V, Gen.hostOps0]
  after_results

/-- Entry `(t, c)` of it is the bit `c < len[t]` as a real. -/
theorem isValidityTable (c : Dev nD) :
    Body.IsValidityTable (V m c main_v7) (m ((c : Thread nD τ).loc main_arg3)) := by
  intro t q
  rw [validity_table]
  show ((((IntOp.cmpi .slt
    (broadcastInDim S16x63 ![0, 1] bcast_S1x63_S16x63_0_1 (broadcastInDim S1x63 ![1] bcast_S63_S1x63_1 (iotaInDim S63 32 0)) (ix2 t q))
    (broadcastInDim S16x63 ![0, 1] bcast_S16x1_S16x63_0_1 (broadcastInDim S16x1 ![0] bcast_S16_S16x1_0
      (m ((c : Thread nD τ).loc main_arg3) : S16.Idx → BitVec 32)) (ix2 t q))).toNat : ℝ)) : EReal) = _
  rw [← IndexForms.ij_eq_ix2, Predicate.bcast_cols, Predicate.bcast_rows, Predicate.iota_apply, IndexForms.ofFin_eq_ix1]

end Cert.KernelIdeal.Staged

end
-- ==== Proof.KernelValue.lean ====
/-
  The kernel's two result arrays, whole.

  The launch has 256 points; point `t` works on samples `2048 t … 2048 t + 2047`: it stages that stretch of the input
  column and of the id column, the two small tables whole, and writes back block `t` (2048 rows, all 63 columns) of each
  result. Sample `p` of block `t` is sample `b = 2048 t + p` of the arrays, so by the body's arithmetic at one entry what
  point `t` writes back is block `t` of the specification; the 256 blocks tile the 524288 rows, every entry lies in the
  block of point `row / 2048`, and so each result array ends as the specification of the argument arrays.
-/
import proofs.«416598_j13511967113827_2_alg».proof.Proof.Gen.KernelIdeal.Value
import proofs.«416598_j13511967113827_2_alg».proof.Proof.Payload
import proofs.«416598_j13511967113827_2_alg».proof.Proof.Staged
import Idealize.ShloMosaic.Lib.Pipeline.Value

noncomputable section

namespace Cert.KernelIdeal.Whole

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 256 points: the input column, the id column and both results move with the point
    along the rows; the two tables stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Sample `p` of block `t`, as a sample of the arrays. -/
def sample (t : Fin cfg0.N) (p : Fin 2048) : Fin 524288 :=
  ⟨t.val * 2048 + p.val, by have ht : t.val < 256 := t.isLt; have := p.isLt; omega⟩

/-! ## The staged blocks at point `t` -/

abbrev xblk (c : Dev nD) (t : Fin cfg0.N) : Vec Ideal S2048x1 .f32 := iblk m c 0 t
abbrev idblk (c : Dev nD) (t : Fin cfg0.N) : Vec Ideal S2048x1 .i32 := iblk m c 1 t
abbrev wblk (c : Dev nD) (t : Fin cfg0.N) : Vec Ideal S16x63 .f32 := iblk m c 2 t
abbrev vtblk (c : Dev nD) (t : Fin cfg0.N) : Vec Ideal S16x63 .f32 := iblk m c 3 t

/-- The input block's row `p` is the input's row `2048 t + p`. -/
theorem xblk_at (c : Dev nD) (t : Fin cfg0.N) (p : Fin 2048) :
    xblk m c t (ix2 p (0 : Fin 1)) = (m ((c : Thread nD τ).loc main_arg0)) (ix2 (sample t p) (0 : Fin 1)) := by
  obtain ⟨e00, e01, -⟩ := block_indices t
  show V m c main_arg0 (((cfg0.win 0).blk t).view.emb (ix2 p (0 : Fin 1))) = _
  rw [V_main_arg0]
  congr 1
  funext a; apply Fin.ext
  match a with
  | ⟨0, _⟩ => show win0_0.index t (0 : Fin 2) * 2048 + 1 * p.val = t.val * 2048 + p.val; omega
  | ⟨1, _⟩ => show win0_0.index t (1 : Fin 2) * 1 + 1 * 0 = 0; omega

/-- The id block's row `p` is the id of sample `2048 t + p`. -/
theorem idblk_at (c : Dev nD) (t : Fin cfg0.N) (p : Fin 2048) :
    idblk m c t (ix2 p (0 : Fin 1)) = (m ((c : Thread nD τ).loc main_arg1)) (ix1 (sample t p)) := by
  obtain ⟨-, -, e10, e11, -⟩ := block_indices t
  show (V m c main_v0 : S524288x1.Idx → BitVec 32) (((cfg0.win 1).blk t).view.emb (ix2 p (0 : Fin 1))) = _
  rw [← Staged.ids_column_at m c (sample t p)]
  congr 1
  funext a; apply Fin.ext
  match a with
  | ⟨0, _⟩ => show win0_1.index t (0 : Fin 2) * 2048 + 1 * p.val = t.val * 2048 + p.val; omega
  | ⟨1, _⟩ => show win0_1.index t (1 : Fin 2) * 1 + 1 * 0 = 0; omega

/-- The cutoff table is staged whole. -/
theorem wblk_eq (c : Dev nD) (t : Fin cfg0.N) : wblk m c t = (m ((c : Thread nD τ).loc main_arg2)) := by
  obtain ⟨-, -, -, -, e20, e21, -⟩ := block_indices t
  funext y
  show V m c main_arg2 (((cfg0.win 2).blk t).view.emb y) = _
  rw [V_main_arg2]
  congr 1
  funext a; apply Fin.ext
  match a with
  | ⟨0, _⟩ => show win0_2.index t (0 : Fin 2) * 16 + 1 * (y 0).val = (y 0).val; omega
  | ⟨1, _⟩ => show win0_2.index t (1 : Fin 2) * 63 + 1 * (y 1).val = (y 1).val; omega

/-- The validity table is staged whole. -/
theorem vtblk_eq (c : Dev nD) (t : Fin cfg0.N) : vtblk m c t = (V m c main_v7 : S16x63.Idx → EReal) := by
  obtain ⟨-, -, -, -, -, -, e30, e31, -⟩ := block_indices t
  funext y
  show (V m c main_v7 : S16x63.Idx → EReal) (((cfg0.win 3).blk t).view.emb y) = _
  congr 1
  funext a; apply Fin.ext
  match a with
  | ⟨0, _⟩ => show win0_3.index t (0 : Fin 2) * 16 + 1 * (y 0).val = (y 0).val; omega
  | ⟨1, _⟩ => show win0_3.index t (1 : Fin 2) * 63 + 1 * (y 1).val = (y 1).val; omega

theorem vtblk_valid (c : Dev nD) (t : Fin cfg0.N) : Body.IsValidityTable (vtblk m c t) (m ((c : Thread nD τ).loc main_arg3)) := by
  rw [vtblk_eq]
  exact Staged.isValidityTable m c

/-! ## The first result -/

/-- Where entry `(p, q)` of result block `t` lies in the array. -/
theorem emb4 (t : Fin cfg0.N) (p : Fin 2048) (q : Fin 63) :
    ((cfg0.win 4).blk t).view.emb (ix2 p q) = ix2 (sample t p) q := by
  obtain ⟨-, -, -, -, -, -, -, -, e40, e41, -⟩ := block_indices t
  funext a; apply Fin.ext
  match a with
  | ⟨0, _⟩ => show win0_4.index t (0 : Fin 2) * 2048 + 1 * p.val = t.val * 2048 + p.val; omega
  | ⟨1, _⟩ => show win0_4.index t (1 : Fin 2) * 63 + 1 * q.val = q.val; omega

/-- WHAT POINT `t` WRITES BACK to the first result is block `t` of the specification's `diff`. -/
theorem flushed4_eq (c : Dev nD) (hr : Spec.InRange (m ((c : Thread nD τ).loc main_arg1))) (t : Fin cfg0.N) :
    (dats m 0 c).flushed 4 t = ((cfg0.win 4).blk t).view.read (Elt Ideal) (Spec.diff (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zero_offsets]
  simp only [View.ld_unit_zero (S := S2048x1) zero_offsets, View.ld_unit_zero (S := S16x63) zero_offsets]
  funext j
  obtain ⟨p, q, rfl⟩ : ∃ (p : Fin 2048) (q : Fin 63), j = ix2 p q := ⟨j 0, j 1, eq_ix2 j⟩
  show k0_pay4 (F := Ideal) (idblk m c t) (wblk m c t) (vtblk m c t) (xblk m c t) (ix2 p q)
    = Spec.diff (m ((c : Thread nD τ).loc main_arg0)) (m ((c : Thread nD τ).loc main_arg1)) (m ((c : Thread nD τ).loc main_arg2)) (m ((c : Thread nD τ).loc main_arg3)) (((cfg0.win 4).blk t).view.emb (ix2 p q))
  have hid := idblk_at m c t p
  refine (Body.diff_at (idblk m c t) (wblk m c t) (vtblk m c t) (xblk m c t) (m ((c : Thread nD τ).loc main_arg3)) p q
    (by rw [hid]; exact hr (sample t p)) (vtblk_valid m c t)).trans ?_
  rw [emb4, hid, xblk_at, wblk_eq]
  rfl

/-- An index of the first result is in point `t`'s block iff each coordinate is in the block's range on its axis. -/
theorem mem_blk4 (t : Fin cfg0.N) (i : S524288x63.Idx) :
    i ∈ ((cfg0.win 4).blk t).view.set ↔ ∀ a : Fin 2, win0_4.index t a * S2048x63.size a ≤ (i a).val
      ∧ (i a).val < win0_4.index t a * S2048x63.size a + S2048x63.size a := by
  show i ∈ ((View.whole main_v8_0).slice (win0_4.rect t)).set ↔ _
  rw [View.set_slice_whole, Rect.mem_set_unit]
  exact Iff.rfl

/-- Every entry of the first result lies in the block of the point `row / 2048`. -/
theorem cover4 (i : S524288x63.Idx) :
    ∃ t : Fin cfg0.N, (cfg0.win 4).flush t = true ∧ i ∈ ((cfg0.win 4).blk t).view.set := by
  have hi0 : (i 0).val < 524288 := (i 0).isLt
  have hi1 : (i 1).val < 63 := (i 1).isLt
  let t : Fin cfg0.N := ⟨(i 0).val / 2048, by show (i 0).val / 2048 < 256; omega⟩
  obtain ⟨-, -, -, -, -, -, -, -, e40, e41, -⟩ := block_indices t
  have e40' : win0_4.index t (0 : Fin 2) = (i 0).val / 2048 := e40
  refine ⟨t, flush0_4 t, ?_⟩
  rw [mem_blk4]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 63 ≤ (i 1).val ∧ (i 1).val < win0_4.index t (1 : Fin 2) * 63 + 63
    omega

/-- THE FIRST RESULT after the run is the specification's `diff` of the argument arrays. -/
theorem final4 (c : Dev nD) (hr : Spec.InRange (m ((c : Thread nD τ).loc main_arg1))) :
    (dats m 0 c).arrAt 4 cfg0.N = Spec.diff (m ((c : Thread nD τ).loc main_arg0)) (m ((c : Thread nD τ).loc main_arg1)) (m ((c : Thread nD τ).loc main_arg2)) (m ((c : Thread nD τ).loc main_arg3)) :=
  (dats m 0 c).arrAt_eq_of_cover 4 (Spec.diff (m ((c : Thread nD τ).loc main_arg0)) (m ((c : Thread nD τ).loc main_arg1)) (m ((c : Thread nD τ).loc main_arg2)) (m ((c : Thread nD τ).loc main_arg3))) (fun t _ => flushed4_eq m c hr t) cover4

/-! ## The second result -/

theorem emb5 (t : Fin cfg0.N) (p : Fin 2048) (q : Fin 63) :
    ((cfg0.win 5).blk t).view.emb (ix2 p q) = ix2 (sample t p) q := by
  obtain ⟨-, -, -, -, -, -, -, -, -, -, e50, e51⟩ := block_indices t
  funext a; apply Fin.ext
  match a with
  | ⟨0, _⟩ => show win0_5.index t (0 : Fin 2) * 2048 + 1 * p.val = t.val * 2048 + p.val; omega
  | ⟨1, _⟩ => show win0_5.index t (1 : Fin 2) * 63 + 1 * q.val = q.val; omega

/-- WHAT POINT `t` WRITES BACK to the second result is block `t` of the specification's `pos`. -/
theorem flushed5_eq (c : Dev nD) (hr : Spec.InRange (m ((c : Thread nD τ).loc main_arg1))) (t : Fin cfg0.N) :
    (dats m 0 c).flushed 5 t = ((cfg0.win 5).blk t).view.read (Elt Ideal) (Spec.pos (m ((c : Thread nD τ).loc main_arg1)) (m ((c : Thread nD τ).loc main_arg2)) (m ((c : Thread nD τ).loc main_arg3))) := by
  rw [Value.flushed5]
  unfold out0_5
  rw [View.canon_unit_zero zero_offsets]
  simp only [View.ld_unit_zero (S := S2048x1) zero_offsets, View.ld_unit_zero (S := S16x63) zero_offsets]
  funext j
  obtain ⟨p, q, rfl⟩ : ∃ (p : Fin 2048) (q : Fin 63), j = ix2 p q := ⟨j 0, j 1, eq_ix2 j⟩
  show k0_pay5 (F := Ideal) (idblk m c t) (wblk m c t) (vtblk m c t) (ix2 p q)
    = Spec.pos (m ((c : Thread nD τ).loc main_arg1)) (m ((c : Thread nD τ).loc main_arg2)) (m ((c : Thread nD τ).loc main_arg3)) (((cfg0.win 5).blk t).view.emb (ix2 p q))
  have hid := idblk_at m c t p
  refine (Body.pos_at (idblk m c t) (wblk m c t) (vtblk m c t) (m ((c : Thread nD τ).loc main_arg3)) p q
    (by rw [hid]; exact hr (sample t p)) (vtblk_valid m c t)).trans ?_
  rw [emb5, hid, wblk_eq]
  rfl

theorem mem_blk5 (t : Fin cfg0.N) (i : S524288x63.Idx) :
    i ∈ ((cfg0.win 5).blk t).view.set ↔ ∀ a : Fin 2, win0_5.index t a * S2048x63.size a ≤ (i a).val
      ∧ (i a).val < win0_5.index t a * S2048x63.size a + S2048x63.size a := by
  show i ∈ ((View.whole main_v8_1).slice (win0_5.rect t)).set ↔ _
  rw [View.set_slice_whole, Rect.mem_set_unit]
  exact Iff.rfl

theorem cover5 (i : S524288x63.Idx) :
    ∃ t : Fin cfg0.N, (cfg0.win 5).flush t = true ∧ i ∈ ((cfg0.win 5).blk t).view.set := by
  have hi0 : (i 0).val < 524288 := (i 0).isLt
  have hi1 : (i 1).val < 63 := (i 1).isLt
  let t : Fin cfg0.N := ⟨(i 0).val / 2048, by show (i 0).val / 2048 < 256; omega⟩
  obtain ⟨-, -, -, -, -, -, -, -, -, -, e50, e51⟩ := block_indices t
  have e50' : win0_5.index t (0 : Fin 2) = (i 0).val / 2048 := e50
  refine ⟨t, flush0_5 t, ?_⟩
  rw [mem_blk5]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 63 ≤ (i 1).val ∧ (i 1).val < win0_5.index t (1 : Fin 2) * 63 + 63
    omega

/-- THE SECOND RESULT after the run is the specification's `pos` of the argument arrays. -/
theorem final5 (c : Dev nD) (hr : Spec.InRange (m ((c : Thread nD τ).loc main_arg1))) :
    (dats m 0 c).arrAt 5 cfg0.N = Spec.pos (m ((c : Thread nD τ).loc main_arg1)) (m ((c : Thread nD τ).loc main_arg2)) (m ((c : Thread nD τ).loc main_arg3)) :=
  (dats m 0 c).arrAt_eq_of_cover 5 (Spec.pos (m ((c : Thread nD τ).loc main_arg1)) (m ((c : Thread nD τ).loc main_arg2)) (m ((c : Thread nD τ).loc main_arg3))) (fun t _ => flushed5_eq m c hr t) cover5

/-! ## The run -/

/-- The kernel's run, with both results named by the specification and the arguments unchanged. -/
theorem run (hr : ∀ c : Dev nD, Spec.InRange (m ((c : Thread nD τ).loc main_arg1))) :
    θ_run defs (onTc (τ := τ) (main (F := Ideal))) ⟨m, fun _ => 0, ρ⟩ fun r => ∀ c : Dev nD,
      r.2.mem ((c : Thread nD τ).loc main_v8_0) = Spec.diff (m ((c : Thread nD τ).loc main_arg0)) (m ((c : Thread nD τ).loc main_arg1)) (m ((c : Thread nD τ).loc main_arg2)) (m ((c : Thread nD τ).loc main_arg3))
      ∧ r.2.mem ((c : Thread nD τ).loc main_v8_1) = Spec.pos (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hr c)), (h c).2.1.trans (final5 m c (hr c)), (h c).2.2⟩)
    (Value.run_blocks m ρ)

end Cert.KernelIdeal.Whole

end
-- ==== Proof.RowGather.lean ====
/-
  Gathering whole rows of a small table by a column of row numbers.

  `table[idx]` for a table of shape `[N, D]` and `n` row numbers lowers to a gather whose start indices are the
  `[n, 1]` column of the numbers: the row axis of the table is collapsed and is the one axis a start index names, the
  column axis is kept whole (slice sizes `[1, D]`) and becomes the result's second axis. Result entry `(p, q)` is the
  table's entry in column `q` of the row whose number is `idx[p, 0]`, read as a signed integer and clamped into
  `[0, N - 1]`: a negative number reads row `0`, a number past the end reads the last row.
-/
import Idealize.ShloMosaic.PureOps
import Idealize.ShloMosaic.Lib.ValueIdx

noncomputable section

namespace Cert.RowGather

open Idealize.ShloMosaic Idealize.ShloMosaic.ValueIdx

variable {α : Type}

/-- The dimension numbers of that gather over literal lists; a program's own record with the same lists is this one. -/
abbrev dims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

section Axes

variable {N D n w : Nat}
  (wf : GatherDims.WF ⟨2, ![N, D]⟩ ⟨2, ![n, 1]⟩ ⟨2, ![n, D]⟩ [1] [0] [] [0] [] 1 ![1, D])
  (idx : IVec ⟨2, ![n, 1]⟩ w) (p : Fin n) (q : Fin D)

theorem row_named : (0 : Fin 2) ∈ (dims N D n wf).startIndexMap := List.mem_singleton.mpr rfl
theorem col_not_named : (1 : Fin 2) ∉ (dims N D n wf).startIndexMap := by
  show (1 : Fin 2) ∉ ([0] : List (Fin 2)); decide
theorem row_collapsed : (0 : Fin 2) ∉ (dims N D n wf).sKept :=
  fun h => ((GatherDims.mem_sKept _ _).mp h).1 (List.mem_singleton.mpr rfl)
theorem col_kept : (1 : Fin 2) ∈ (dims N D n wf).sKept :=
  (GatherDims.mem_sKept _ _).mpr ⟨by show (1 : Fin 2) ∉ ([0] : List (Fin 2)); decide, List.not_mem_nil⟩

/-- On the row axis the slice starts at the row number, read signed and clamped so that one row fits. -/
theorem start_row : (dims N D n wf).start (ix2 p q) idx (0 : Fin 2) = min (idx (ix2 p 0)).toInt.toNat (N - 1) := by
  unfold GatherDims.start
  rw [dif_pos (row_named wf)]
  have hsi : (dims N D n wf).siIdx (ix2 p q) ⟨List.idxOf (0 : Fin 2) (dims N D n wf).startIndexMap,
      List.idxOf_lt_length_iff.2 (row_named wf)⟩ = ix2 p 0 := by
    funext b; refine Fin.ext ?_
    match b with
    | ⟨0, _⟩ => rfl
    | ⟨1, _⟩ => rfl
  rw [hsi]
  rfl

/-- On the column axis the slice starts at 0: no start index names a column. -/
theorem start_col : (dims N D n wf).start (ix2 p q) idx (1 : Fin 2) = 0 := by
  unfold GatherDims.start
  rw [dif_neg (col_not_named wf)]

/-- The kept column axis is addressed by the result's second coordinate. -/
theorem off_col : (dims N D n wf).offCoord (ix2 p q) (1 : Fin 2) = q.val := by
  unfold GatherDims.offCoord
  rw [dif_pos (col_kept wf)]
  rfl

end Axes

/-- The gather read at `(p, q)`. -/
theorem gather_rows_at {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (dims N D n wf) x idx (ix2 p q)
      = x (ix2 ⟨min (idx (ix2 p 0)).toInt.toNat (N - 1), by omega⟩ q) := by
  unfold Host.gather
  congr 1
  funext a
  refine Fin.ext ?_
  match a with
  | ⟨0, _⟩ =>
    show (dims N D n wf).start (ix2 p q) idx (0 : Fin 2) + (dims N D n wf).batchCoord (ix2 p q) (0 : Fin 2)
      + (dims N D n wf).offCoord (ix2 p q) (0 : Fin 2) = min (idx (ix2 p 0)).toInt.toNat (N - 1)
    rw [start_row, GatherDims.batchCoord_eq_zero _ _ _ List.not_mem_nil,
      GatherDims.offCoord_eq_zero _ _ _ (row_collapsed wf), Nat.add_zero]
  | ⟨1, _⟩ =>
    show (dims N D n wf).start (ix2 p q) idx (1 : Fin 2) + (dims N D n wf).batchCoord (ix2 p q) (1 : Fin 2)
      + (dims N D n wf).offCoord (ix2 p q) (1 : Fin 2) = q.val
    rw [start_col, GatherDims.batchCoord_eq_zero _ _ _ List.not_mem_nil, off_col, Nat.add_zero, Nat.zero_add]

end Cert.RowGather

end
-- ==== Proof.RefValue.lean ====
/-
  The reference program computes the specification, for row numbers in range.

  The reference first wraps a negative row number (`id < 0 → id + 16`, numpy's indexing from the end) and then gathers,
  and a gather clamps its start index into the table. For a word below sixteen neither does anything: the word is not
  negative as a signed integer, and it is already a row of the table. So the two gathers read row `id` of the cutoffs and
  entry `id` of the lengths, the mask is `c < len[id]`, and the two selects are the specification's.
-/
import proofs.«416598_j13511967113827_2_alg».proof.Proof.Gen.ReferenceIdeal.Read
import proofs.«416598_j13511967113827_2_alg».proof.Proof.Spec
import proofs.«416598_j13511967113827_2_alg».proof.Proof.RowGather
import proofs.«416598_j13511967113827_2_alg».proof.Proof.IndexForms
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- A word below sixteen is not negative as a signed integer. -/
theorem not_negative (id : BitVec 32) (h : id.toNat < 16) : IntOp.cmpi .slt id 0#32 = 0#1 := by
  refine eq_zero_of_ne_one fun e => ?_
  have := (Predicate.slt_iff_toNat (a := id) (b := 0#32) (by omega) (by decide)).mp e
  simp at this

/-- For such a word the signed reading clamped into the sixteen rows is the row it names. -/
theorem clamp_eq (id : BitVec 32) (h : id.toNat < 16) : min id.toInt.toNat (16 - 1) = (Spec.rowOf id).val := by
  rw [Predicate.toInt_eq_toNat_of_lt (a := id) (by omega)]
  show min ((id.toNat : Int)).toNat (16 - 1) = min id.toNat 15
  simp

variable (x0 : (⟨S524288x1, .f32⟩ : BufTy).Contents (Elt Ideal)) (x1 : (⟨S524288, .i32⟩ : BufTy).Contents (Elt Ideal))
  (x2 : (⟨S16x63, .f32⟩ : BufTy).Contents (Elt Ideal)) (x3 : (⟨S16, .i32⟩ : BufTy).Contents (Elt Ideal))

/-- The wrap before the first gather leaves a row number in range as it is. -/
theorem wrap_cutoffs (b : Fin 524288) (h : (x1 (ix1 b)).toNat < 16) : val_main_v4 (F := Ideal) x1 (ix1 b) = x1 (ix1 b) := by
  rw [val_main_v4_apply, val_main_v1_apply, val_main_v0_apply, val_main_c_apply, not_negative _ h]
  exact select_zero _ _

/-- The wrap before the second gather likewise. -/
theorem wrap_lengths (b : Fin 524288) (h : (x1 (ix1 b)).toNat < 16) : val_main_v13 (F := Ideal) x1 (ix1 b) = x1 (ix1 b) := by
  rw [val_main_v13_apply, val_main_v10_apply, val_main_v9_apply, val_main_c_1_apply, not_negative _ h]
  exact select_zero _ _

/-- The gathered cutoffs at `(b, q)`: row `ids[b]` of the table. -/
theorem cutoffs_at (b : Fin 524288) (q : Fin 63) (h : (x1 (ix1 b)).toNat < 16) :
    val_main_v6 (F := Ideal) x1 x2 (ix2 b q) = x2 (ix2 (Spec.rowOf (x1 (ix1 b))) q) := by
  unfold val_main_v6
  have hd : gather_S16x63_S524288x1_S524288x63_1_0_n_n_0_1_163
      = RowGather.dims 16 63 524288 gather_S16x63_S524288x1_S524288x63_1_0_n_n_0_1_163_wf := rfl
  rw [hd, RowGather.gather_rows_at (by decide)]
  refine congrArg (fun r => x2 (ix2 r q)) (Fin.ext ?_)
  show min (val_main_v5 (F := Ideal) x1 (ix2 b (0 : Fin 1))).toInt.toNat (16 - 1) = _
  have hi : idx_main_v5 (ix2 b (0 : Fin 1)) = ix1 b := by
    funext a; match a with | ⟨0, _⟩ => exact Fin.ext rfl
  rw [val_main_v5_apply, hi, wrap_cutoffs x1 b h, clamp_eq _ h]

/-- The gathered lengths at `b`: entry `ids[b]`. -/
theorem lengths_at (b : Fin 524288) (h : (x1 (ix1 b)).toNat < 16) :
    val_main_v15 (F := Ideal) x1 x3 (ix1 b) = x3 (ix1 (Spec.rowOf (x1 (ix1 b)))) := by
  unfold val_main_v15
  rw [← IndexForms.ofFin_eq_ix1,
    Predicate.gather_take gather_S16_S524288x1_S524288_n_0_n_n_0_1_1 rfl rfl rfl rfl x3 (val_main_v14 (F := Ideal) x1) b (by decide),
    IndexForms.ofFin_eq_ix1]
  refine congrArg (fun r => x3 (ix1 r)) (Fin.ext ?_)
  show min (val_main_v14 (F := Ideal) x1 (Predicate.ixP b)).toInt.toNat (16 - 1) = _
  have hi : idx_main_v14 (Predicate.ixP b) = ix1 b := by
    funext a; match a with | ⟨0, _⟩ => exact Fin.ext rfl
  rw [val_main_v14_apply, hi, wrap_lengths x1 b h, clamp_eq _ h, IndexForms.ofFin_eq_ix1]

/-- The reference's mask at `(b, q)` is the specification's validity bit. -/
theorem mask_at (b : Fin 524288) (q : Fin 63) (h : (x1 (ix1 b)).toNat < 16) :
    val_main_v19 (F := Ideal) x1 x3 (ix2 b q) = Spec.valid x3 (x1 (ix1 b)) q := by
  have h17 : idx_main_v8 (idx_main_v17 (ix2 b q)) = ix1 q := by
    funext a; match a with | ⟨0, _⟩ => exact Fin.ext rfl
  have h18 : idx_main_v16 (idx_main_v18 (ix2 b q)) = ix1 b := by
    funext a; match a with | ⟨0, _⟩ => exact Fin.ext rfl
  rw [val_main_v19_apply, val_main_v17_apply, val_main_v8_apply, h17, val_main_v7_apply, val_main_v18_apply,
    val_main_v16_apply, h18, lengths_at x1 x3 b h]
  rfl

/-- The filler of both selects is zero. -/
theorem filler0 (i : S524288x63.Idx) : val_main_call0_v1 (F := Ideal) i = (0 : EReal) := by
  rw [val_main_call0_v1_apply, val_main_call0_v0_apply, val_main_cst_apply]
  exact Ideal.ofBits_zero_f32

theorem filler1 (i : S524288x63.Idx) : val_main_call1_v1 (F := Ideal) i = (0 : EReal) := by
  rw [val_main_call1_v1_apply, val_main_call1_v0_apply, val_main_cst_3_apply]
  exact Ideal.ofBits_zero_f32

/-- THE FIRST RESULT is the specification's `diff`. -/
theorem diff_eq (hr : Spec.InRange x1) : val_main_v22 (F := Ideal) x0 x1 x2 x3 = Spec.diff x0 x1 x2 x3 := by
  funext i
  obtain ⟨b, q, rfl⟩ : ∃ (b : Fin 524288) (q : Fin 63), i = ix2 b q := ⟨i 0, i 1, eq_ix2 i⟩
  have h20 : idx_main_v20 (ix2 b q) = ix2 b (0 : Fin 1) := by
    funext a; match a with | ⟨0, _⟩ => exact Fin.ext rfl | ⟨1, _⟩ => exact Fin.ext rfl
  rw [val_main_v22_apply, mask_at x1 x3 b q (hr b), val_main_v21_apply, val_main_v20_apply, h20,
    cutoffs_at x1 x2 b q (hr b), filler0]
  rfl

/-- THE SECOND RESULT is the specification's `pos`. -/
theorem pos_eq (hr : Spec.InRange x1) : val_main_v23 (F := Ideal) x1 x2 x3 = Spec.pos x1 x2 x3 := by
  funext i
  obtain ⟨b, q, rfl⟩ : ∃ (b : Fin 524288) (q : Fin 63), i = ix2 b q := ⟨i 0, i 1, eq_ix2 i⟩
  rw [val_main_v23_apply, mask_at x1 x3 b q (hr b), cutoffs_at x1 x2 b q (hr b), filler1]
  rfl

end Cert.ReferenceIdeal.RefValue

end
-- ==== Proof.PreRange.lean ====
/-
  What the precondition says of the row numbers.

  The precondition is a conjunction of four `all`s; its last two are `all(ids >= 0)` and `all(ids < 16)`, signed
  comparisons of the 32-bit words with the constants `0` and `16`. A word that is at least `0` as a signed integer has
  its top bit clear, so its signed and unsigned readings agree, and being below `16` signed it is below `16` as a natural
  number: every row number names one of the sixteen rows.
-/
import proofs.«416598_j13511967113827_2_alg».proof.Proof.Gen.Pre_finite_inputs
import proofs.«416598_j13511967113827_2_alg».proof.Proof.Spec
import Idealize.ShloMosaic.Lib.ReduceAll
import Idealize.ShloMosaic.Lib.ValueIdx

noncomputable section

namespace Cert.PreRange

open Cert.Pre_finite_inputs Cert.Pre_finite_inputs.Gen Idealize.ShloMosaic Idealize.ShloMosaic.ValueIdx

instance : Subsingleton S_.Idx := ⟨fun _ _ => funext fun d => d.elim0⟩

/-- A word between `0` and `16` as a signed integer is below `16` as a natural number. -/
theorem toNat_lt_of_signed (id : BitVec 32) (h0 : (0#32 : BitVec 32).toInt ≤ id.toInt)
    (h16 : id.toInt < (16#32 : BitVec 32).toInt) : id.toNat < 16 := by
  have e0 : (0#32 : BitVec 32).toInt = 0 := by decide
  have e16 : (16#32 : BitVec 32).toInt = 16 := by decide
  rw [e0] at h0
  rw [e16] at h16
  have hlt : id.toNat < 2 ^ 32 := id.isLt
  rw [BitVec.toInt_eq_toNat_cond] at h0 h16
  split at h0
  · rename_i hc
    rw [if_pos hc] at h16
    omega
  · omega

/-- The precondition, all ones, puts every row number in range. -/
theorem inRange_of_pre {F : FTy → Type} [FloatOps F] (a0 : FVec F S524288x1 .f32) (a1 : IVec S524288 32)
    (a2 : FVec F S16x63 .f32) (a3 : IVec S16 32) (h : fn (F := F) a0 a1 a2 a3 = fun _ => 1#1) :
    Spec.InRange a1 := by
  have h1 := congrFun h ix0
  dsimp only [fn, fn_part1] at h1
  obtain ⟨h12, h15⟩ := IntOp.andi_eq_one.mp h1
  obtain ⟨_, h11⟩ := IntOp.andi_eq_one.mp h12
  intro b
  have g0 := Host.reduce_andi_all _ _ _ _ _ h11 (ix1 b)
  have g16 := Host.reduce_andi_all _ _ _ _ _ h15 (ix1 b)
  exact toNat_lt_of_signed _ (IntOp.cmpi_sge.mp g0) (IntOp.cmpi_slt.mp g16)

end Cert.PreRange

end
-- ==== Proof.lean ====
/- The proof of `Cert.Claim`: the kernel and its reference compute the same two arrays over the extended reals.

   The programs. For `B = 524288` samples, each with a real input `x[b]` and a row number `ids[b]`, a table `w` of
   sixteen rows of 63 cutoffs and the number `len[r]` of valid columns of each row, both return
       pos[b, c]  = w[ids[b], c]           if c < len[ids[b]], else 0
       diff[b, c] = x[b] - w[ids[b], c]    if c < len[ids[b]], else 0.
   The reference gathers row `ids[b]` of `w` and entry `ids[b]` of `len`. The kernel, 2048 samples at a time, builds
   the one-hot matrix `[ids[b] = k]` and multiplies it exactly by `w` and by the `0/1` table `[c < len[k]]`; a row of
   fifteen zeros and a one selects the table's row, on the extended reals too (`0 * x = 0` for every `x`), and the
   `0/1` product compared with one half is the validity bit again.

   The precondition. The two agree for row numbers `0 ≤ ids[b] < 16`, which the precondition states beside the
   finiteness of the float inputs (which this proof never uses). Outside that range they differ: the one-hot product
   selects nothing and yields zero, while the reference wraps a negative number and a gather clamps its index into the
   table, reading a row all the same.

   The modules: `Spec` states the two results as functions of the arguments; `OneHot` is the selection law;
   `Payload` reads the kernel body's arithmetic at one entry; `Staged` reads the two arrays the program computes before
   the launch; `KernelValue` goes from the 256 blocks to the whole arrays; `RowGather` and `RefValue` read the
   reference; `PreRange` reads the range of the row numbers off the precondition. -/
import proofs.«416598_j13511967113827_2_alg».proof.Defs
import proofs.«416598_j13511967113827_2_alg».proof.Proof.Gen.Kernel
import proofs.«416598_j13511967113827_2_alg».proof.Proof.Gen.Kernel.Skeleton
import proofs.«416598_j13511967113827_2_alg».proof.Proof.Gen.Kernel.Launch
import proofs.«416598_j13511967113827_2_alg».proof.Proof.Gen.Kernel.Points
import proofs.«416598_j13511967113827_2_alg».proof.Proof.Gen.Kernel.Frame
import proofs.«416598_j13511967113827_2_alg».proof.Proof.Gen.KernelIdeal
import proofs.«416598_j13511967113827_2_alg».proof.Proof.Gen.KernelIdeal.Skeleton
import proofs.«416598_j13511967113827_2_alg».proof.Proof.Gen.KernelIdeal.Launch
import proofs.«416598_j13511967113827_2_alg».proof.Proof.Gen.KernelIdeal.Points
import proofs.«416598_j13511967113827_2_alg».proof.Proof.Gen.KernelIdeal.Frame
import proofs.«416598_j13511967113827_2_alg».proof.Proof.Gen.ReferenceIdeal
import proofs.«416598_j13511967113827_2_alg».proof.Proof.Gen.Pre_finite_inputs
import proofs.«416598_j13511967113827_2_alg».proof.Proof.Gen.KernelIdeal.Value
import proofs.«416598_j13511967113827_2_alg».proof.Proof.Gen.ReferenceIdeal.Run
import proofs.«416598_j13511967113827_2_alg».proof.Proof.Gen.ReferenceIdeal.Read
import proofs.«416598_j13511967113827_2_alg».proof.Proof.KernelValue
import proofs.«416598_j13511967113827_2_alg».proof.Proof.RefValue
import proofs.«416598_j13511967113827_2_alg».proof.Proof.PreRange
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, with every row number in range, both programs end with `diff` and `pos`
    of those arguments. -/
theorem algebraic : Cert.algebraic_KernelIdeal_ReferenceIdeal := by
  intro m ρ m' ρ' hpre hagree
  have hr : ∀ c : Dev Cert.KernelIdeal.nD,
      Cert.Spec.InRange (m ((c.tc : Thread Cert.KernelIdeal.nD Cert.KernelIdeal.τ).loc Cert.KernelIdeal.main_arg1)) :=
    fun c => Cert.PreRange.inRange_of_pre _ _ _ _ (hpre c)
  refine ⟨fun c => Cert.Spec.diff
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Spec.pos
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ hr, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v22_eq, (hagree c).1, (hagree c).2.1, (hagree c).2.2.1, (hagree c).2.2.2]
    exact Cert.ReferenceIdeal.RefValue.diff_eq _ _ _ _ (hr c)
  · rw [Cert.ReferenceIdeal.Read.val_main_v23_eq, (hagree c).2.1, (hagree c).2.2.1, (hagree c).2.2.2]
    exact Cert.ReferenceIdeal.RefValue.pos_eq _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
